-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x512 : Shape := ⟨3, ![256, 1024, 512]⟩
abbrev S256x128x512 : Shape := ⟨3, ![256, 128, 512]⟩
abbrev S256x1024 : Shape := ⟨2, ![256, 1024]⟩
abbrev S_ : Shape := ⟨0, ![]⟩

class Facts : Prop where
  bcast_S_S256x1024x512 : S_.BroadcastsInDim S256x1024x512 (![] : Fin 0 → Fin S256x1024x512.rank)
  reducesTo_S256x1024x512_S_d0_1_2 : S256x1024x512.ReducesTo [0, 1, 2] S_
  h_S_ : 0 < S_.numel
  bcast_S_S256x128x512 : S_.BroadcastsInDim S256x128x512 (![] : Fin 0 → Fin S256x128x512.rank)
  reducesTo_S256x128x512_S_d0_1_2 : S256x128x512.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S256x1024x512 .f32) (main_arg1 : FVec F S256x128x512 .f32) (main_arg2 : FVec F S256x1024 .f32) : IVec S_ 1 :=
  let main_v0 : FVec F S256x1024x512 .f32 := Host.absf main_arg0
  let main_cst : FVec F S_ .f32 := constant S_ .f32 0x7F800000#32
  let main_v1 : FVec F S256x1024x512 .f32 := broadcastInDim S256x1024x512 ![] bcast_S_S256x1024x512 main_cst
  let main_v2 : IVec S256x1024x512 1 := cmpf .olt main_v0 main_v1
  let main_c : IVec S_ 1 := constantI S_ 1 1#1
  let main_v3 : IVec S_ 1 := (fun x v => Host.reduce IntOp.andi x v reducesTo_S256x1024x512_S_d0_1_2 h_S_) main_v2 main_c
  let main_v4 : FVec F S256x128x512 .f32 := Host.absf main_arg1
  let main_cst_0 : FVec F S_ .f32 := constant S_ .f32 0x7F800000#32
  let main_v5 : FVec F S256x128x512 .f32 := broadcastInDim S256x128x512 ![] bcast_S_S256x128x512 main_cst_0
  let main_v6 : IVec S256x128x512 1 := cmpf .olt main_v4 main_v5
  let main_c_1 : IVec S_ 1 := constantI S_ 1 1#1
  let main_v7 : IVec S_ 1 := (fun x v => Host.reduce IntOp.andi x v reducesTo_S256x128x512_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S256x1024x512 : Shape := ⟨3, ![256, 1024, 512]⟩
abbrev S256x128x512 : Shape := ⟨3, ![256, 128, 512]⟩
abbrev S256x1024 : Shape := ⟨2, ![256, 1024]⟩
abbrev S256x1 : Shape := ⟨2, ![256, 1]⟩
abbrev S8x256x512 : Shape := ⟨3, ![8, 256, 512]⟩
abbrev S8x128x512 : Shape := ⟨3, ![8, 128, 512]⟩
abbrev S8x256 : Shape := ⟨2, ![8, 256]⟩
abbrev S8x1 : Shape := ⟨2, ![8, 1]⟩
abbrev S8x128 : Shape := ⟨2, ![8, 128]⟩
abbrev S8x128x256 : Shape := ⟨3, ![8, 128, 256]⟩
abbrev S8x1x256 : Shape := ⟨3, ![8, 1, 256]⟩
abbrev S8 : Shape := ⟨1, ![8]⟩

abbrev nBuf : Space → Nat
  | .hbm => 4
  | .vmem => 11
  | .smem => 0
  | _ => 0

abbrev bufTy : (tb : Table) → Fin (tcTables nBuf tb) → BufTy
  | .hbm, ⟨0, _⟩ => ⟨S256x1024x512, .f32⟩
  | .hbm, ⟨1, _⟩ => ⟨S256x128x512, .f32⟩
  | .hbm, ⟨2, _⟩ => ⟨S256x1024, .f32⟩
  | .hbm, ⟨3, _⟩ => ⟨S256x1, .f32⟩
  | .local _ .vmem, ⟨0, _⟩ => ⟨S8x256x512, .f32⟩
  | .local _ .vmem, ⟨1, _⟩ => ⟨S8x256x512, .f32⟩
  | .local _ .vmem, ⟨2, _⟩ => ⟨S8x128x512, .f32⟩
  | .local _ .vmem, ⟨3, _⟩ => ⟨S8x128x512, .f32⟩
  | .local _ .vmem, ⟨4, _⟩ => ⟨S8x256, .f32⟩
  | .local _ .vmem, ⟨5, _⟩ => ⟨S8x256, .f32⟩
  | .local _ .vmem, ⟨6, _⟩ => ⟨S8x1, .f32⟩
  | .local _ .vmem, ⟨7, _⟩ => ⟨S8x1, .f32⟩
  | .local _ .vmem, ⟨8, _⟩ => ⟨S8x128, .f32⟩
  | .local _ .vmem, ⟨9, _⟩ => ⟨S8x1, .f32⟩
  | .local _ .vmem, ⟨10, _⟩ => ⟨S8x1, .f32⟩
  | _, _ => ⟨S256x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_28 : BitVec 32 := 0#32
  let v46 : BitVec 1 := Scalar.cmpi .ne v45 c0_i32_28
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256x512_S8x256x512_0_0_0 : ∀ a, (![0, 0, 0] : Fin 3 → Nat) a + S8x256x512.size a ≤ S8x256x512.size a
  h_S8x256x512 : 0 < S8x256x512.numel
  bitsLt_bf16_f32 : FTy.bits .bf16 < FTy.bits .f32
  inb_S8x128x512_S8x128x512_0_0_0 : ∀ a, (![0, 0, 0] : Fin 3 → Nat) a + S8x128x512.size a ≤ S8x128x512.size a
  h_S8x128x512 : 0 < S8x128x512.numel
  inb_S8x256_S8x256_0_0 : ∀ a, (![0, 0] : Fin 2 → Nat) a + S8x256.size a ≤ S8x256.size a
  h_S8x256 : 0 < S8x256.numel
  shapeCasts_S8x256_S8x1x256 : S8x256.ShapeCasts S8x1x256
  shapeCasts_S8x1x256_S8x1x256 : S8x1x256.ShapeCasts S8x1x256
  broadcasts_S8x1x256_S8x128x256 : S8x1x256.Broadcasts S8x128x256
  reduces_S8x128x256_S8x128 : S8x128x256.Reduces [2] S8x128
  reduces_S8x128x256_S8x256 : S8x128x256.Reduces [1] S8x256
  reduces_S8x256_S8 : S8x256.Reduces [1] S8
  shapeCasts_S8_S8x1 : S8.ShapeCasts S8x1
  reduces_S8x128_S8 : S8x128.Reduces [1] S8
  dot_S8x128x512_S8x256x512_S8x128x256_2_2_1_1_0_0_wf : DotDims.WF S8x128x512 S8x256x512 S8x128x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S256x1024x512.size a
  hwx0_0 : ∀ i : grid0.Coords, EltTy.bits .f32 = 32 ∨ (Rect.block (s := S256x1024x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S256x128x512.size a
  hwx0_1 : ∀ i : grid0.Coords, EltTy.bits .f32 = 32 ∨ (Rect.block (s := S256x128x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S256x1024.size a
  hwx0_2 : ∀ i : grid0.Coords, EltTy.bits .f32 = 32 ∨ (Rect.block (s := S256x1024) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S256x1.size a
  hwx0_3 : ∀ i : grid0.Coords, EltTy.bits .f32 = 32 ∨ (Rect.block (s := S256x1) S8x1.size (cc0_transform_3 i) (hinb0_3 i)).WholeWords (EltTy.packing .f32)

variable [Facts₀]

def dot_S8x128x512_S8x256x512_S8x128x256_2_2_1_1_0_0 : DotDims S8x128x512 S8x256x512 S8x128x256 where
  lhsContracting := [2]
  rhsContracting := [2]
  lhsNonContracting := [1]
  rhsNonContracting := [1]
  lhsBatch := [0]
  rhsBatch := [0]
  wf := dot_S8x128x512_S8x256x512_S8x128x256_2_2_1_1_0_0_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x1024x512 : Shape := ⟨3, ![256, 1024, 512]⟩
abbrev S256x128x512 : Shape := ⟨3, ![256, 128, 512]⟩
abbrev S256x1024 : Shape := ⟨2, ![256, 1024]⟩
abbrev S256x128x1024 : Shape := ⟨3, ![256, 128, 1024]⟩
abbrev S_ : Shape := ⟨0, ![]⟩
abbrev S256x1x1024 : Shape := ⟨3, ![256, 1, 1024]⟩
abbrev S256x128 : Shape := ⟨2, ![256, 128]⟩
abbrev S256 : Shape := ⟨1, ![256]⟩
abbrev S256x1 : Shape := ⟨2, ![256, 1]⟩

abbrev nBuf : Space → Nat
  | .hbm => 42
  | .vmem => 0
  | .smem => 0
  | _ => 0

abbrev bufTy : (tb : Table) → Fin (tcTables nBuf tb) → BufTy
  | .hbm, ⟨0, _⟩ => ⟨S256x1024x512, .f32⟩
  | .hbm, ⟨1, _⟩ => ⟨S256x128x512, .f32⟩
  | .hbm, ⟨2, _⟩ => ⟨S256x1024, .f32⟩
  | .hbm, ⟨3, _⟩ => ⟨S256x128x1024, .f32⟩
  | .hbm, ⟨4, _⟩ => ⟨S_, .f32⟩
  | .hbm, ⟨5, _⟩ => ⟨S256x128x1024, .f32⟩
  | .hbm, ⟨6, _⟩ => ⟨S256x128x1024, .i1⟩
  | .hbm, ⟨7, _⟩ => ⟨S_, .f32⟩
  | .hbm, ⟨8, _⟩ => ⟨S256x128x1024, .f32⟩
  | .hbm, ⟨9, _⟩ => ⟨S256x128x1024, .f32⟩
  | .hbm, ⟨10, _⟩ => ⟨S256x128x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1x1024, .f32⟩
  | .hbm, ⟨15, _⟩ => ⟨S_, .f32⟩
  | .hbm, ⟨16, _⟩ => ⟨S256x1x1024, .f32⟩
  | .hbm, ⟨17, _⟩ => ⟨S256x1x1024, .f32⟩
  | .hbm, ⟨18, _⟩ => ⟨S256x128x1024, .f32⟩
  | .hbm, ⟨19, _⟩ => ⟨S256x128x1024, .f32⟩
  | .hbm, ⟨20, _⟩ => ⟨S_, .f32⟩
  | .hbm, ⟨21, _⟩ => ⟨S256x128, .f32⟩
  | .hbm, ⟨22, _⟩ => ⟨S_, .f32⟩
  | .hbm, ⟨23, _⟩ => ⟨S256, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S256x1, .f32⟩
  | .hbm, ⟨41, _⟩ => ⟨S256x1, .f32⟩
  | _, _ => ⟨S256x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S256x128x1024 : S_.BroadcastsInDim S256x128x1024 (![] : Fin 0 → Fin S256x128x1024.rank)
  bcast_S_S256x1024 : S_.BroadcastsInDim S256x1024 (![] : Fin 0 → Fin S256x1024.rank)
  bcast_S256x1024_S256x1x1024_0_2 : S256x1024.BroadcastsInDim S256x1x1024 (![0, 2] : Fin 2 → Fin S256x1x1024.rank)
  bcast_S_S256x1x1024 : S_.BroadcastsInDim S256x1x1024 (![] : Fin 0 → Fin S256x1x1024.rank)
  bcast_S256x1x1024_S256x128x1024_0_1_2 : S256x1x1024.BroadcastsInDim S256x128x1024 (![0, 1, 2] : Fin 3 → Fin S256x128x1024.rank)
  reducesTo_S256x128x1024_S256x128_d2 : S256x128x1024.ReducesTo [2] S256x128
  h_S_ : 0 < S_.numel
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  reducesTo_S256x128x1024_S256x1024_d1 : S256x128x1024.ReducesTo [1] S256x1024
  reducesTo_S256x1024_S256_d1 : S256x1024.ReducesTo [1] S256
  dot_S256x128x512_S256x1024x512_S256x128x1024_2_2_1_1_0_0_wf : DotDims.WF S256x128x512 S256x1024x512 S256x128x1024 [2] [2] [1] [1] [0] [0]

variable [Facts₀]

def dot_S256x128x512_S256x1024x512_S256x128x1024_2_2_1_1_0_0 : DotDims S256x128x512 S256x1024x512 S256x128x1024 where
  lhsContracting := [2]
  rhsContracting := [2]
  lhsNonContracting := [1]
  rhsNonContracting := [1]
  lhsBatch := [0]
  rhsBatch := [0]
  wf := dot_S256x128x512_S256x1024x512_S256x128x1024_2_2_1_1_0_0_wf

class Facts : Prop extends Facts₀ where

variable [Facts]
-- ==== Proof.Cases.lean ====
/-
  What one grid point leaves behind, case by case, as pure functions of what it found.

  A point holds a tile of 256 patches `x0`, the batch block's words `x1` and the tile's mask `x2`, and three running
  quantities: the word-by-word largest penalised similarity so far `xs0`, the weighted column sum so far `xs1` and the
  mask sum so far `xs2`. Every point replaces them by
      largest:  max xs0 (this tile's word-by-word largest penalised similarity),
      weighted: xs1 + (this tile's sum over patches of (largest similarity over words) · mask),
      mask:     xs2 + (this tile's mask sum).
  At a batch block's first tile the three start from the bottom element, zero and zero instead of what the point
  before left; at its last tile the point also stores the words' average of the first plus the quotient of the second
  by the third plus a small constant, computed from the three values it has just stored.
-/
import proofs.«155726_j979252544026_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- Every access of the body starts at the origin of its buffer. -/
theorem off2 : (![0, 0] : Fin 2 → Nat) = fun _ => 0 := funext fun a => by fin_cases a <;> rfl
theorem off3 : (![0, 0, 0] : Fin 3 → Nat) = fun _ => 0 := funext fun a => by fin_cases a <;> rfl

/-! ## A first tile: the three quantities start afresh -/

/-- The running largest, from the bottom element: the reset is stored, read back, and updated by the tile. -/
theorem first_largest (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : cond0_0 i) (hc1 : ¬cond0_1 i)
    (x0 : Vec F S8x256x512 .f32) (x1 : Vec F S8x128x512 .f32) (x2 : Vec F S8x256 .f32) :
    sout0_A_0 c i arg2 harg2 arg3 harg3 arg4 harg4 arg5 harg5 arg6 harg6 arg7 harg7 arg8 harg8 hc0 hc1 x0 x1 x2 = k0_pay8 x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x128) off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The running weighted column sum, from zero. -/
theorem first_weighted (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : cond0_0 i) (hc1 : ¬cond0_1 i)
    (x0 : Vec F S8x256x512 .f32) (x1 : Vec F S8x128x512 .f32) (x2 : Vec F S8x256 .f32) :
    sout0_A_1 c i arg2 harg2 arg3 harg3 arg4 harg4 arg5 harg5 arg6 harg6 arg7 harg7 arg8 harg8 hc0 hc1 x0 x1 x2 = k0_pay1 (k0_pay5 (F := F)) (k0_pay9 x0 x1 x2) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x1) off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The running mask sum, from zero. -/
theorem first_mask (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : cond0_0 i) (hc1 : ¬cond0_1 i)
    (x0 : Vec F S8x256x512 .f32) (x1 : Vec F S8x128x512 .f32) (x2 : Vec F S8x256 .f32) :
    sout0_A_2 c i arg2 harg2 arg3 harg3 arg4 harg4 arg5 harg5 arg6 harg6 arg7 harg7 arg8 harg8 hc0 hc1 x0 x1 x2 = k0_pay2 x2 (k0_pay6 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x1) off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-! ## A middle tile: each quantity is updated over what the point before left -/

/-- The running largest, updated by the tile. -/
theorem next_largest (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : ¬cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    sout0_B_0 c i arg2 harg2 arg3 harg3 arg4 harg4 arg5 harg5 arg6 harg6 arg7 harg7 arg8 harg8 hc0 hc1 x0 x1 x2 xs0 xs1 xs2 = k0_pay8 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The running weighted column sum, updated by the tile. -/
theorem next_weighted (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : ¬cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    sout0_B_1 c i arg2 harg2 arg3 harg3 arg4 harg4 arg5 harg5 arg6 harg6 arg7 harg7 arg8 harg8 hc0 hc1 x0 x1 x2 xs0 xs1 xs2 = k0_pay1 xs1 (k0_pay9 x0 x1 x2) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The running mask sum, updated by the tile. -/
theorem next_mask (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : ¬cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    sout0_B_2 c i arg2 harg2 arg3 harg3 arg4 harg4 arg5 harg5 arg6 harg6 arg7 harg7 arg8 harg8 hc0 hc1 x0 x1 x2 xs0 xs1 xs2 = k0_pay2 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-! ## A last tile: the same updates, and the result from the three updated quantities -/

/-- The running largest, updated by the tile. -/
theorem last_largest (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    sout0_C_0 c i arg2 harg2 arg3 harg3 arg4 harg4 arg5 harg5 arg6 harg6 arg7 harg7 arg8 harg8 hc0 hc1 x0 x1 x2 xs0 xs1 xs2 = k0_pay8 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The running weighted column sum, updated by the tile. -/
theorem last_weighted (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    sout0_C_1 c i arg2 harg2 arg3 harg3 arg4 harg4 arg5 harg5 arg6 harg6 arg7 harg7 arg8 harg8 hc0 hc1 x0 x1 x2 xs0 xs1 xs2 = k0_pay1 xs1 (k0_pay9 x0 x1 x2) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The running mask sum, updated by the tile. -/
theorem last_mask (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    sout0_C_2 c i arg2 harg2 arg3 harg3 arg4 harg4 arg5 harg5 arg6 harg6 arg7 harg7 arg8 harg8 hc0 hc1 x0 x1 x2 xs0 xs1 xs2 = k0_pay2 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

/-- The result block: the words' average of the updated largest plus the updated weighted sum over the updated mask sum plus the small constant; each of the three is read back after this point's own store of it. -/
theorem last_result (c : Dev nD) (i : grid0.Coords) (arg2 : Memref sig .tc .vmem S8x256x512 .f32) (harg2 : arg2.IsWhole) (arg3 : Memref sig .tc .vmem S8x128x512 .f32) (harg3 : arg3.IsWhole) (arg4 : Memref sig .tc .vmem S8x256 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (hc0 : ¬cond0_0 i) (hc1 : cond0_1 i)
    (x0 : Vec F S8x256x512 .f32) (x1 : Vec F S8x128x512 .f32) (x2 : Vec F S8x256 .f32) (xs0 : Vec F S8x128 .f32) (xs1 : Vec F S8x1 .f32) (xs2 : Vec F S8x1 .f32) :
    out0_C_3 c i arg2 harg2 arg3 harg3 arg4 harg4 arg5 harg5 arg6 harg6 arg7 harg7 arg8 harg8 hc0 hc1 x0 x1 x2 xs0 xs1 xs2 = k0_pay3 (k0_pay8 x0 x1 x2 xs0) (k0_pay1 xs1 (k0_pay9 x0 x1 x2)) (k0_pay2 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread,
    View.ld_unit_zero (S := S8x256x512) off3, View.ld_unit_zero (S := S8x128x512) off3, View.ld_unit_zero (S := S8x256) off2, View.ld_unit_zero (S := S8x128) off2, View.ld_unit_zero (S := S8x1) off2,
    View.readCov_unit_zero (S := S8x128) _ off2, View.readCov_unit_zero (S := S8x1) _ off2]

end Cert.KernelIdeal.Cases

end
-- ==== Proof.Tiles.lean ====
/-
  The running quantities point by point, and the result block of a batch block's last tile.

  The grid visits a batch block's four tiles one after another (points `4i`, `4i+1`, `4i+2`, `4i+3`). Writing
  `start t` for what a first tile leaves (the three quantities afresh, updated by tile `t`) and `step t s` for a later
  tile's update of the triple `s` the point before left, the triple after point `4i+3` is
  `step (4i+3) (step (4i+2) (step (4i+1) (start (4i))))`, and the block written back there is the closing combination of it.
-/
import proofs.«155726_j979252544026_1_alg».proof.Proof.Cases

noncomputable section

open Idealize.ShloMosaic Idealize.ShloMosaic.TcCoe Idealize.SL.Sem

namespace Cert.KernelIdeal.Tiles

open Cert.KernelIdeal Cert.KernelIdeal.Gen Cert.KernelIdeal.Cases

variable {F : FTy → Type} [FloatOps F]
variable (m : (ℓ : Loc nD τ sig) → Buf (Elt F) ℓ)

/-- The three running quantities: largest, weighted column sum, mask sum. -/
abbrev Triple (F : FTy → Type) : Type := Vec F S8x128 .f32 × Vec F S8x1 .f32 × Vec F S8x1 .f32

/-- The tile of patches, the words and the tile of the mask a point holds, at their literal types. -/
abbrev patches (c : Dev nD) (t : Fin cfg0.N) : Vec F S8x256x512 .f32 := iblk m c 0 t
abbrev words (c : Dev nD) (t : Fin cfg0.N) : Vec F S8x128x512 .f32 := iblk m c 1 t
abbrev mask (c : Dev nD) (t : Fin cfg0.N) : Vec F S8x256 .f32 := iblk m c 2 t

/-- What a first tile leaves: the three quantities afresh, updated by the tile. -/
def start (c : Dev nD) (t : Fin cfg0.N) : Triple F :=
  (k0_pay8 (patches m c t) (words m c t) (mask m c t) (k0_pay4 (F := F)),
   k0_pay1 (k0_pay5 (F := F)) (k0_pay9 (patches m c t) (words m c t) (mask m c t)),
   k0_pay2 (mask m c t) (k0_pay6 (F := F)))

/-- A later tile's update of the triple the point before left. -/
def step (c : Dev nD) (t : Fin cfg0.N) (s : Triple F) : Triple F :=
  (k0_pay8 (patches m c t) (words m c t) (mask m c t) s.1,
   k0_pay1 s.2.1 (k0_pay9 (patches m c t) (words m c t) (mask m c t)),
   k0_pay2 (mask m c t) s.2.2)

/-- The closing combination of a triple. -/
def close (s : Triple F) : Vec F S8x1 .f32 := k0_pay3 s.1 s.2.1 s.2.2

/-- The triple after the point before `t`. -/
abbrev prev (c : Dev nD) (t : Fin cfg0.N) : Triple F :=
  (outsAt0 m c (t.val - 1) (Nat.lt_of_le_of_lt (Nat.sub_le _ _) t.isLt)).2

/-- After a first tile the triple is `start`. -/
theorem triple_first (c : Dev nD) (t : Fin cfg0.N) (h0 : t.val % 4 = 0) :
    (outsAt0 m c t.val t.isLt).2 = start m c t := by
  have h1 : ¬t.val % 4 = 3 := by omega
  rw [outsAt0_A m c t h0 h1]
  dsimp only
  unfold start
  rw [first_largest, first_weighted, first_mask]

/-- After a middle tile the triple is the update of the one before. -/
theorem triple_middle (c : Dev nD) (t : Fin cfg0.N) (h0 : ¬t.val % 4 = 0) (h1 : ¬t.val % 4 = 3) :
    (outsAt0 m c t.val t.isLt).2 = step m c t (prev m c t) := by
  rw [outsAt0_B m c t h0 h1]
  dsimp only
  unfold step
  rw [next_largest, next_weighted, next_mask]

/-- After a last tile the triple is the update of the one before, -/
theorem triple_last (c : Dev nD) (t : Fin cfg0.N) (h0 : ¬t.val % 4 = 0) (h1 : t.val % 4 = 3) :
    (outsAt0 m c t.val t.isLt).2 = step m c t (prev m c t) := by
  rw [outsAt0_C m c t h0 h1]
  dsimp only
  unfold step
  rw [last_largest, last_weighted, last_mask]

/-- and the block it stores is the closing combination of that update. -/
theorem result_last (c : Dev nD) (t : Fin cfg0.N) (h0 : ¬t.val % 4 = 0) (h1 : t.val % 4 = 3) :
    (outsAt0 m c t.val t.isLt).1 = close (step m c t (prev m c t)) := by
  rw [outsAt0_C m c t h0 h1]
  dsimp only
  unfold close step
  rw [last_result]

/-- The point `k` places before `t`. -/
abbrev back (t : Fin cfg0.N) (k : ℕ) : Fin cfg0.N := ⟨t.val - k, Nat.lt_of_le_of_lt (Nat.sub_le _ _) t.isLt⟩

/-- The block a last tile stores, from the batch block's four tiles in order: the first starts the three quantities, the
    next three update them, and the closing combination is taken of the last update. -/
theorem unrolled (c : Dev nD) (t : Fin cfg0.N) (h3 : t.val % 4 = 3) :
    (outsAt0 m c t.val t.isLt).1
      = close (step m c t (step m c (back t 1) (step m c (back t 2) (start m c (back t 3))))) := by
  have hN : t.val < 128 := lt_of_lt_of_eq t.isLt (show cfg0.N = 128 from N_0)
  rw [result_last m c t (by omega) h3]
  have e1 : prev m c t = step m c (back t 1) (prev m c (back t 1)) :=
    triple_middle m c (back t 1) (by show ¬(t.val - 1) % 4 = 0; omega) (by show ¬(t.val - 1) % 4 = 3; omega)
  have e2 : prev m c (back t 1) = step m c (back t 2) (prev m c (back t 2)) :=
    triple_middle m c (back t 2) (by show ¬(t.val - 2) % 4 = 0; omega) (by show ¬(t.val - 2) % 4 = 3; omega)
  have e3 : prev m c (back t 2) = start m c (back t 3) :=
    triple_first m c (back t 3) (by show (t.val - 3) % 4 = 0; omega)
  rw [e1, e2, e3]

end Cert.KernelIdeal.Tiles

end
-- ==== Proof.Blocks.lean ====
/-
  Where a point's blocks sit in the arrays.

  Point `t` of the grid is tile `t % 4` of batch block `t / 4`. Its patches are rows `8·(t/4) … 8·(t/4)+7` and
  patches `256·(t%4) … 256·(t%4)+255` of the patch array, all 512 features; its words are the same eight rows of the
  word array, all words and features; its mask the same rows and patches of the mask array. So an entry of a block at
  local coordinates is the array's entry at the block's origin plus those coordinates.
-/
import proofs.«155726_j979252544026_1_alg».proof.Proof.Tiles
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.KernelIdeal.Tiles Idealize.ShloMosaic.ValueIdx

variable {F : FTy → Type} [FloatOps F]
variable (m : (ℓ : Loc nD τ sig) → Buf (Elt F) ℓ)

/-- The four windows' block indices at every point, decided over the grid: the batch block on the first axis, the
    tile on the patch axis of the patch and mask windows, the origin elsewhere. -/
theorem origins : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = t.val / 4 ∧ win0_2.index t (1 : Fin 2) = t.val % 4
    ∧ win0_3.index t (0 : Fin 2) = t.val / 4 ∧ win0_3.index t (1 : Fin 2) = 0 :=
  (by decide +kernel : ∀ t : Fin grid0.N, _)

/-- An entry of a point's tile of patches is the patch array's entry at the tile's origin plus the local coordinates. -/
theorem patches_apply (c : Dev nD) (t : Fin cfg0.N) (r : Fin 8) (p : Fin 256) (k : Fin 512) (b : Fin 256) (n : Fin 1024)
    (hb : b.val = 8 * (t.val / 4) + r.val) (hn : n.val = 256 * (t.val % 4) + p.val) :
    patches m c t (ix3 r p k) = m ((c : Thread nD τ).loc main_arg0) (ix3 b n k) := by
  obtain ⟨e0, e1, e2, -⟩ := origins t
  show iblk m c 0 t (ix3 r p k) = _
  unfold iblk
  rw [View.read_apply]
  show V m c main_arg0 _ = m ((c : Thread nD τ).loc main_arg0) _
  unfold V
  congr 1
  funext a
  apply Fin.ext
  match a with
  | ⟨0, _⟩ => show win0_0.index t (0 : Fin 3) * 8 + 1 * r.val = b.val; rw [e0, hb]; omega
  | ⟨1, _⟩ => show win0_0.index t (1 : Fin 3) * 256 + 1 * p.val = n.val; rw [e1, hn]; omega
  | ⟨2, _⟩ => show win0_0.index t (2 : Fin 3) * 512 + 1 * k.val = k.val; rw [e2]; omega

/-- An entry of a point's words is the word array's entry in the batch block's row. -/
theorem words_apply (c : Dev nD) (t : Fin cfg0.N) (r : Fin 8) (w : Fin 128) (k : Fin 512) (b : Fin 256)
    (hb : b.val = 8 * (t.val / 4) + r.val) :
    words m c t (ix3 r w k) = m ((c : Thread nD τ).loc main_arg1) (ix3 b w k) := by
  obtain ⟨-, -, -, e0, e1, e2, -⟩ := origins t
  show iblk m c 1 t (ix3 r w k) = _
  unfold iblk
  rw [View.read_apply]
  show V m c main_arg1 _ = m ((c : Thread nD τ).loc main_arg1) _
  unfold V
  congr 1
  funext a
  apply Fin.ext
  match a with
  | ⟨0, _⟩ => show win0_1.index t (0 : Fin 3) * 8 + 1 * r.val = b.val; rw [e0, hb]; omega
  | ⟨1, _⟩ => show win0_1.index t (1 : Fin 3) * 128 + 1 * w.val = w.val; rw [e1]; omega
  | ⟨2, _⟩ => show win0_1.index t (2 : Fin 3) * 512 + 1 * k.val = k.val; rw [e2]; omega

/-- An entry of a point's tile of the mask is the mask array's entry at the tile's origin plus the local coordinates. -/
theorem mask_apply (c : Dev nD) (t : Fin cfg0.N) (r : Fin 8) (p : Fin 256) (b : Fin 256) (n : Fin 1024)
    (hb : b.val = 8 * (t.val / 4) + r.val) (hn : n.val = 256 * (t.val % 4) + p.val) :
    mask m c t (ix2 r p) = m ((c : Thread nD τ).loc main_arg2) (ix2 b n) := by
  obtain ⟨-, -, -, -, -, -, e0, e1, -⟩ := origins t
  show iblk m c 2 t (ix2 r p) = _
  unfold iblk
  rw [View.read_apply]
  show V m c main_arg2 _ = m ((c : Thread nD τ).loc main_arg2) _
  unfold V
  congr 1
  funext a
  apply Fin.ext
  match a with
  | ⟨0, _⟩ => show win0_2.index t (0 : Fin 2) * 8 + 1 * r.val = b.val; rw [e0, hb]; omega
  | ⟨1, _⟩ => show win0_2.index t (1 : Fin 2) * 256 + 1 * p.val = n.val; rw [e1, hn]; omega

end Cert.KernelIdeal.Blocks

end
-- ==== Proof.Pooling.lean ====
/-
  Word–patch similarity pooling, over the extended reals.

  For a batch entry `b`, a word `m` and a patch `n` the similarity is the inner product of the word's and the patch's
  512 features passed through a leaky ramp (`x` where `0 ≤ x`, a fixed slope times `x` elsewhere). Two scores are pooled
  from it: per word the largest similarity over the patches, each patch first penalised by `1000 · (1 − mask)`, averaged
  over the 128 words; and per patch the largest similarity over the words, weighted by the mask, summed over the patches
  and divided by the mask's sum plus a small constant. The result is their sum, one number per batch entry.

  The patches can be taken 256 at a time: a largest element over 1024 indices is the largest of the four stretches'
  largest elements taken one after another from the bottom element (`fold_max_tiles`: a lattice fact), and a sum over
  1024 indices is the sum of the four stretches' sums (`sum_tiles`: a commutative-monoid fact). Neither needs its
  terms to be finite.
-/
import Mathlib.Data.Finset.Fold
import Idealize.ShloMosaic.PureOps.Ideal.Laws
import Idealize.ShloMosaic.Lib.ValueIdx

noncomputable section

open scoped BigOperators

namespace Cert.Pooling

open Idealize.ShloMosaic Idealize.ShloMosaic.ValueIdx

/-! ## Stretches of 256 among 1024 -/

/-- Index `n` of stretch `j`: `256 j + n`. -/
def tileAt (j : Fin 4) (n : Fin 256) : Fin 1024 := ⟨256 * j.val + n.val, by have := j.isLt; have := n.isLt; omega⟩

theorem tileAt_val (j : Fin 4) (n : Fin 256) : (tileAt j n).val = 256 * j.val + n.val := rfl

/-- Every index lies in a stretch. -/
theorem exists_tileAt (n : Fin 1024) : ∃ (j : Fin 4) (n' : Fin 256), n = tileAt j n' :=
  ⟨⟨n.val / 256, by have := n.isLt; omega⟩, ⟨n.val % 256, Nat.mod_lt _ (by norm_num)⟩, Fin.ext (by
    show n.val = 256 * (n.val / 256) + n.val % 256
    omega)⟩

/-- The largest value of `f` over stretch `j`, from the bottom element. -/
def tileMax (f : Fin 1024 → EReal) (j : Fin 4) : EReal :=
  (Finset.univ : Finset (Fin 256)).fold max ⊥ fun n => f (tileAt j n)

/-- The sum of `f` over stretch `j`. -/
def tileSum (f : Fin 1024 → EReal) (j : Fin 4) : EReal := ∑ n : Fin 256, f (tileAt j n)

theorem le_tileMax (f : Fin 1024 → EReal) (j : Fin 4) (n : Fin 256) : f (tileAt j n) ≤ tileMax f j :=
  (Finset.le_fold_max _).mpr (Or.inr ⟨n, Finset.mem_univ _, le_rfl⟩)

theorem tileMax_le_fold (f : Fin 1024 → EReal) (j : Fin 4) :
    tileMax f j ≤ (Finset.univ : Finset (Fin 1024)).fold max ⊥ f :=
  (Finset.fold_max_le _).mpr ⟨bot_le, fun n _ => (Finset.le_fold_max _).mpr (Or.inr ⟨tileAt j n, Finset.mem_univ _, le_rfl⟩)⟩

/-- A largest element over 1024 indices is the running largest element over the four stretches, from the bottom
    element: both sides are the least upper bound of the same values. -/
theorem fold_max_tiles (f : Fin 1024 → EReal) :
    (Finset.univ : Finset (Fin 1024)).fold max ⊥ f
      = max (max (max (max ⊥ (tileMax f 0)) (tileMax f 1)) (tileMax f 2)) (tileMax f 3) := by
  apply le_antisymm
  · refine (Finset.fold_max_le _).mpr ⟨bot_le, fun n _ => ?_⟩
    obtain ⟨j, n', rfl⟩ := exists_tileAt n
    refine le_trans (le_tileMax f j n') ?_
    match j with
    | ⟨0, _⟩ => exact le_max_of_le_left (le_max_of_le_left (le_max_of_le_left (le_max_right _ _)))
    | ⟨1, _⟩ => exact le_max_of_le_left (le_max_of_le_left (le_max_right _ _))
    | ⟨2, _⟩ => exact le_max_of_le_left (le_max_right _ _)
    | ⟨3, _⟩ => exact le_max_right _ _
  · exact max_le (max_le (max_le (max_le bot_le (tileMax_le_fold f 0)) (tileMax_le_fold f 1)) (tileMax_le_fold f 2))
      (tileMax_le_fold f 3)

/-- A stretch's index as a pair's image under the product bijection `Fin 4 × Fin 256 ≃ Fin 1024`. -/
theorem finProd_eq_tileAt (j : Fin 4) (n : Fin 256) : (finProdFinEquiv (j, n) : Fin (4 * 256)) = tileAt j n :=
  Fin.ext (by
    show n.val + 256 * j.val = 256 * j.val + n.val
    omega)

/-- A sum over 1024 indices is the sum of the four stretches' sums. -/
theorem sum_tiles (f : Fin 1024 → EReal) :
    ∑ n : Fin 1024, f n = tileSum f 0 + tileSum f 1 + tileSum f 2 + tileSum f 3 := by
  have e : ∑ n : Fin 1024, f n = ∑ p : Fin 4 × Fin 256, f (finProdFinEquiv p) :=
    ((finProdFinEquiv (m := 4) (n := 256)).sum_comp f).symm
  rw [e, Fintype.sum_prod_type, Fin.sum_univ_four]
  simp only [finProd_eq_tileAt]
  rfl

/-! ## The pooled score -/

abbrev SPatch : Shape := ⟨3, ![256, 1024, 512]⟩
abbrev SWord : Shape := ⟨3, ![256, 128, 512]⟩
abbrev SMask : Shape := ⟨2, ![256, 1024]⟩
abbrev SOut : Shape := ⟨2, ![256, 1]⟩

/-- The leaky ramp: `x` where `0 ≤ x`, the slope's multiple elsewhere. The slope is the binary value nearest one tenth;
    it is the same word wherever it is used and is never evaluated. -/
def leaky (x : EReal) : EReal :=
  Scalar.select (FloatOps.cmpf (F := Ideal) (φ := .f32) .oge x (Ideal.ofBits .f32 0x00000000#32)) x
    (Ideal.ofBits .f32 0x3DCCCCCD#32 * x)

variable (P : SPatch.Idx → EReal) (W : SWord.Idx → EReal) (K : SMask.Idx → EReal)

/-- Word `m`'s and patch `n`'s inner product in batch entry `b`. -/
def dot (b : Fin 256) (m : Fin 128) (n : Fin 1024) : EReal := ∑ k : Fin 512, W (ix3 b m k) * P (ix3 b n k)

/-- Their similarity. -/
def sim (b : Fin 256) (m : Fin 128) (n : Fin 1024) : EReal := leaky (dot P W b m n)

/-- Patch `n`'s penalty: `1000 · (1 − mask)`. -/
def pen (b : Fin 256) (n : Fin 1024) : EReal :=
  Ideal.ofBits .f32 0x447A0000#32 * (Ideal.ofBits .f32 0x3F800000#32 - K (ix2 b n))

/-- Word `m`'s penalised similarities, patch by patch. -/
def rowTerm (b : Fin 256) (m : Fin 128) (n : Fin 1024) : EReal := sim P W b m n - pen K b n

/-- Patch `n`'s largest similarity over the words. -/
def colMax (b : Fin 256) (n : Fin 1024) : EReal :=
  (Finset.univ : Finset (Fin 128)).fold max ⊥ fun m => sim P W b m n

/-- Patch `n`'s weighted term. -/
def colTerm (b : Fin 256) (n : Fin 1024) : EReal := colMax P W b n * K (ix2 b n)

/-- From a word-by-word largest penalised similarity `r`, a weighted column sum `w` and a mask sum `s`: the words' average
    plus the quotient. -/
def combine (r : Fin 128 → EReal) (w s : EReal) : EReal :=
  Ideal.div (∑ m : Fin 128, r m) (Ideal.ofBits .f32 0x43000000#32)
    + Ideal.div w (s + Ideal.ofBits .f32 0x322BCC77#32)

/-- The pooled score of batch entry `b`. -/
def score (b : Fin 256) : EReal :=
  combine (fun m => (Finset.univ : Finset (Fin 1024)).fold max ⊥ (rowTerm P W K b m))
    (∑ n : Fin 1024, colTerm P W K b n) (∑ n : Fin 1024, K (ix2 b n))

/-- The result array. -/
def G : SOut.Idx → EReal := fun j => score P W K (j 0)

/-- The same score with the patches taken 256 at a time. -/
theorem score_tiles (b : Fin 256) :
    score P W K b
      = combine (fun m => max (max (max (max ⊥ (tileMax (rowTerm P W K b m) 0)) (tileMax (rowTerm P W K b m) 1))
            (tileMax (rowTerm P W K b m) 2)) (tileMax (rowTerm P W K b m) 3))
          (tileSum (colTerm P W K b) 0 + tileSum (colTerm P W K b) 1 + tileSum (colTerm P W K b) 2
            + tileSum (colTerm P W K b) 3)
          (tileSum (fun n => K (ix2 b n)) 0 + tileSum (fun n => K (ix2 b n)) 1 + tileSum (fun n => K (ix2 b n)) 2
            + tileSum (fun n => K (ix2 b n)) 3) := by
  unfold score
  rw [sum_tiles, sum_tiles]
  congr 1
  funext m
  exact fold_max_tiles _

end Cert.Pooling

end
-- ==== Proof.Payloads.lean ====
/-
  The body's arithmetic read at an index, over the extended reals.

  In a tile, row `r` is a batch entry, `m` a word, `p` a patch of the tile and `k` a feature. The similarity of word `m`
  and patch `p` is the leaky ramp of `∑ k, word r m k · patch r p k` (the product contracts the features and keeps the
  batch axis; a change of float format is the identity here). From it: the running largest at `(r, m)` becomes the larger
  of what it was and the largest over `p` of similarity minus penalty; the tile's weighted column sum at `r` is the sum
  over `p` of (the largest similarity over `m`) times the mask; the two running sums add their tile's term; and the
  closing combination at `r` is the words' average of the largest plus the quotient of the two sums.
-/
import proofs.«155726_j979252544026_1_alg».proof.Proof.Gen.KernelIdeal.Skeleton
import proofs.«155726_j979252544026_1_alg».proof.Proof.Pooling
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## Words, layouts and inserted indices -/

/-- The word of minus infinity is the bottom element. -/
theorem negInf : Ideal.ofBits .f32 0xFF800000#32 = (⊥ : EReal) := by simp [Ideal.ofBits, Ideal.ieee]

/-- A unit axis inserted in the middle, `[8,256] → [8,1,256]`: entry `(r, 0, p)` is entry `(r, p)`. -/
theorem cast_mid (x : S8x256.Idx → EReal) (h : S8x256.ShapeCasts S8x1x256) (r : Fin 8) (p : Fin 256) :
    shapeCast S8x1x256 x h (ix3 r (0 : Fin 1) p) = x (ix2 r p) := by
  refine shapeCast_apply x h _ _ ?_
  rw [Shape.rowMajor_val_two, Shape.rowMajor_val_three]
  show (r.val * 256 + p.val) = (r.val * 1 + (0 : Fin 1).val) * 256 + p.val
  simp

/-- That unit axis repeated over the 128 words: entry `(r, m, p)` is entry `(r, 0, p)`. -/
theorem bcast_mid (x : S8x1x256.Idx → EReal) (h : S8x1x256.Broadcasts S8x128x256) (r : Fin 8) (m : Fin 128) (p : Fin 256) :
    broadcastTo S8x128x256 x h (ix3 r m p) = x (ix3 r (0 : Fin 1) p) := by
  refine broadcastTo_apply x h _ _ fun a => ?_
  match a with
  | ⟨0, _⟩ => rfl
  | ⟨1, _⟩ => rfl
  | ⟨2, _⟩ => rfl

/-- A trailing unit axis added, `[8] → [8,1]`: entry `(r, 0)` is entry `r`. -/
theorem cast_col (x : S8.Idx → EReal) (h : S8.ShapeCasts S8x1) (r : Fin 8) :
    shapeCast S8x1 x h (ix2 r (0 : Fin 1)) = x (ix1 r) := by
  refine shapeCast_apply x h _ _ ?_
  rw [Shape.rowMajor_val_one, Shape.rowMajor_val_two]
  show r.val = r.val * 1 + (0 : Fin 1).val
  simp

/-- The index a reduction inserts on the axis it drops. -/
theorem lift_patch (h : S8x128x256.Reduces [2] S8x128) (r : Fin 8) (m : Fin 128) (p : Fin 256) : h.lift (ix2 r m) p = ix3 r m p :=
  funext fun a => Fin.ext (by match a with | ⟨0, _⟩ => rfl | ⟨1, _⟩ => rfl | ⟨2, _⟩ => rfl)
theorem lift_word (h : S8x128x256.Reduces [1] S8x256) (r : Fin 8) (p : Fin 256) (m : Fin 128) : h.lift (ix2 r p) m = ix3 r m p :=
  funext fun a => Fin.ext (by match a with | ⟨0, _⟩ => rfl | ⟨1, _⟩ => rfl | ⟨2, _⟩ => rfl)
theorem lift_row256 (h : S8x256.Reduces [1] S8) (r : Fin 8) (p : Fin 256) : h.lift (ix1 r) p = ix2 r p :=
  funext fun a => Fin.ext (by match a with | ⟨0, _⟩ => rfl | ⟨1, _⟩ => rfl)
theorem lift_row128 (h : S8x128.Reduces [1] S8) (r : Fin 8) (m : Fin 128) : h.lift (ix1 r) m = ix2 r m :=
  funext fun a => Fin.ext (by match a with | ⟨0, _⟩ => rfl | ⟨1, _⟩ => rfl)

/-! ## The batched product at an index -/

/-- The product's operand indices at output index `i` and contraction index `q`: the batch coordinate and the word on
    the left, the batch coordinate and the patch on the right, the feature on both. -/
theorem lhs_0 (i : S8x128x256.Idx) (q : dot_S8x128x512_S8x256x512_S8x128x256_2_2_1_1_0_0.contr.Idx) : (dot_S8x128x512_S8x256x512_S8x128x256_2_2_1_1_0_0.lhsIdx i q 0).val = (i 0).val := by
  unfold DotDims.lhsIdx
  rw [dif_pos (show (0 : Fin S8x128x512.rank) ∈ dot_S8x128x512_S8x256x512_S8x128x256_2_2_1_1_0_0.lhsBatch by decide)]
  rfl
theorem lhs_1 (i : S8x128x256.Idx) (q : dot_S8x128x512_S8x256x512_S8x128x256_2_2_1_1_0_0.contr.Idx) : (dot_S8x128x512_S8x256x512_S8x128x256_2_2_1_1_0_0.lhsIdx i q 1).val = (i 1).val := by
  unfold DotDims.lhsIdx
  rw [dif_neg (show ¬(1 : Fin S8x128x512.rank) ∈ dot_S8x128x512_S8x256x512_S8x128x256_2_2_1_1_0_0.lhsBatch by decide), dif_pos (show (1 : Fin S8x128x512.rank) ∈ dot_S8x128x512_S8x256x512_S8x128x256_2_2_1_1_0_0.lhsNonContracting by decide)]
  rfl
theorem lhs_2 (i : S8x128x256.Idx) (q : dot_S8x128x512_S8x256x512_S8x128x256_2_2_1_1_0_0.contr.Idx) : (dot_S8x128x512_S8x256x512_S8x128x256_2_2_1_1_0_0.lhsIdx i q 2).val = (q ⟨0, by decide⟩).val :=
  dot_S8x128x512_S8x256x512_S8x128x256_2_2_1_1_0_0.lhsIdx_val_of_single rfl i q
theorem rhs_0 (i : S8x128x256.Idx) (q : dot_S8x128x512_S8x256x512_S8x128x256_2_2_1_1_0_0.contr.Idx) : (dot_S8x128x512_S8x256x512_S8x128x256_2_2_1_1_0_0.rhsIdx i q 0).val = (i 0).val := by
  unfold DotDims.rhsIdx
  rw [dif_pos (show (0 : Fin S8x256x512.rank) ∈ dot_S8x128x512_S8x256x512_S8x128x256_2_2_1_1_0_0.rhsBatch by decide)]
  rfl
theorem rhs_1 (i : S8x128x256.Idx) (q : dot_S8x128x512_S8x256x512_S8x128x256_2_2_1_1_0_0.contr.Idx) : (dot_S8x128x512_S8x256x512_S8x128x256_2_2_1_1_0_0.rhsIdx i q 1).val = (i 2).val := by
  unfold DotDims.rhsIdx
  rw [dif_neg (show ¬(1 : Fin S8x256x512.rank) ∈ dot_S8x128x512_S8x256x512_S8x128x256_2_2_1_1_0_0.rhsBatch by decide), dif_pos (show (1 : Fin S8x256x512.rank) ∈ dot_S8x128x512_S8x256x512_S8x128x256_2_2_1_1_0_0.rhsNonContracting by decide)]
  rfl
theorem rhs_2 (i : S8x128x256.Idx) (q : dot_S8x128x512_S8x256x512_S8x128x256_2_2_1_1_0_0.contr.Idx) : (dot_S8x128x512_S8x256x512_S8x128x256_2_2_1_1_0_0.rhsIdx i q 2).val = (q ⟨0, by decide⟩).val :=
  dot_S8x128x512_S8x256x512_S8x128x256_2_2_1_1_0_0.rhsIdx_val_of_single rfl i q

/-- Into a zero accumulator the product at `(r, m, p)` is the inner product of word `m`'s and patch `p`'s features. -/
theorem product_apply (Wd : S8x128x512.Idx → EReal) (Pt : S8x256x512.Idx → EReal) (r : Fin 8) (m : Fin 128) (p : Fin 256) :
    FloatOps.matmul (F := Ideal) (φ₁ := .bf16) (φ₂ := .bf16) dot_S8x128x512_S8x256x512_S8x128x256_2_2_1_1_0_0 none Wd Pt (constant S8x128x256 .f32 0x00000000#32) (ix3 r m p)
      = ∑ k : Fin 512, Wd (ix3 r m k) * Pt (ix3 r p k) := by
  rw [Ideal.matmul_constant_zero_apply, ← Equiv.sum_comp (contrEquiv1 dot_S8x128x512_S8x256x512_S8x128x256_2_2_1_1_0_0 512 rfl rfl).symm]
  refine Finset.sum_congr rfl fun k _ => ?_
  have hk := contrEquiv1_symm_val dot_S8x128x512_S8x256x512_S8x128x256_2_2_1_1_0_0 512 rfl rfl k
  have el : dot_S8x128x512_S8x256x512_S8x128x256_2_2_1_1_0_0.lhsIdx (ix3 r m p) ((contrEquiv1 dot_S8x128x512_S8x256x512_S8x128x256_2_2_1_1_0_0 512 rfl rfl).symm k) = ix3 r m k := funext fun a => Fin.ext (by
    match a with
    | ⟨0, _⟩ => exact lhs_0 _ _
    | ⟨1, _⟩ => exact lhs_1 _ _
    | ⟨2, _⟩ => exact (lhs_2 _ _).trans hk)
  have er : dot_S8x128x512_S8x256x512_S8x128x256_2_2_1_1_0_0.rhsIdx (ix3 r m p) ((contrEquiv1 dot_S8x128x512_S8x256x512_S8x128x256_2_2_1_1_0_0 512 rfl rfl).symm k) = ix3 r p k := funext fun a => Fin.ext (by
    match a with
    | ⟨0, _⟩ => exact rhs_0 _ _
    | ⟨1, _⟩ => exact rhs_1 _ _
    | ⟨2, _⟩ => exact (rhs_2 _ _).trans hk)
  rw [el, er]

/-! ## The body's four reductions, at the tile's shapes -/

/-- A row's sum over its 256 patches. -/
theorem rowsum256 (src : FVec Ideal S8x256 .f32) (h : S8x256.Reduces [1] S8) (hφ : FKind.Formats .f32)
    (hacc : (0x00000000#32 : BitVec 32) = 0x00000000#32) (r : Fin 8) :
    multiReduction .add [1] S8 src 0x00000000#32 h hφ hacc (ix1 r) = ∑ p : Fin 256, src (ix2 r p) :=
  (Ideal.multiReduction_add_single src 0x00000000#32 h hφ hacc (ix1 r)).trans
    (Finset.sum_congr rfl fun p _ => congrArg src (lift_row256 h r p))

/-- A row's sum over its 128 words. -/
theorem rowsum128 (src : FVec Ideal S8x128 .f32) (h : S8x128.Reduces [1] S8) (hφ : FKind.Formats .f32)
    (hacc : (0x00000000#32 : BitVec 32) = 0x00000000#32) (r : Fin 8) :
    multiReduction .add [1] S8 src 0x00000000#32 h hφ hacc (ix1 r) = ∑ m : Fin 128, src (ix2 r m) :=
  (Ideal.multiReduction_add_single src 0x00000000#32 h hφ hacc (ix1 r)).trans
    (Finset.sum_congr rfl fun m _ => congrArg src (lift_row128 h r m))

/-- The largest over the 256 patches, from the bottom element. -/
theorem rowmax256 (src : FVec Ideal S8x128x256 .f32) (h : S8x128x256.Reduces [2] S8x128) (hφ : FKind.Formats .f32)
    (hacc : (0xFF800000#32 : BitVec 32) = 0xFF800000#32) (r : Fin 8) (m : Fin 128) :
    multiReduction .maximumf [2] S8x128 src 0xFF800000#32 h hφ hacc (ix2 r m)
      = (Finset.univ : Finset (Fin 256)).fold max ⊥ fun p => src (ix3 r m p) :=
  (Ideal.multiReduction_maximumf_single src 0xFF800000#32 h hφ hacc (ix2 r m)).trans (by
    rw [Ideal.ofBits_def, negInf]
    exact Finset.fold_congr fun p _ => congrArg src (lift_patch h r m p))

/-- The largest over the 128 words, from the bottom element. -/
theorem colmax128 (src : FVec Ideal S8x128x256 .f32) (h : S8x128x256.Reduces [1] S8x256) (hφ : FKind.Formats .f32)
    (hacc : (0xFF800000#32 : BitVec 32) = 0xFF800000#32) (r : Fin 8) (p : Fin 256) :
    multiReduction .maximumf [1] S8x256 src 0xFF800000#32 h hφ hacc (ix2 r p)
      = (Finset.univ : Finset (Fin 128)).fold max ⊥ fun m => src (ix3 r m p) :=
  (Ideal.multiReduction_maximumf_single src 0xFF800000#32 h hφ hacc (ix2 r p)).trans (by
    rw [Ideal.ofBits_def, negInf]
    exact Finset.fold_congr fun m _ => congrArg src (lift_word h r p m))

/-! ## The payloads at an index -/

variable (Pt : Vec Ideal S8x256x512 .f32) (Wd : Vec Ideal S8x128x512 .f32) (Mk : Vec Ideal S8x256 .f32)

/-- The tile's similarity of word `m` and patch `p`. -/
theorem sim_apply (r : Fin 8) (m : Fin 128) (p : Fin 256) :
    k0_pay7 Pt Wd (ix3 r m p) = Cert.Pooling.leaky (∑ k : Fin 512, Wd (ix3 r m k) * Pt (ix3 r p k)) := by
  have hM : matmul dot_S8x128x512_S8x256x512_S8x128x256_2_2_1_1_0_0 none (truncf (F := Ideal) .bf16 Wd bitsLt_bf16_f32) (truncf (F := Ideal) .bf16 Pt bitsLt_bf16_f32)
      (constant S8x128x256 .f32 0x00000000#32) (ix3 r m p) = ∑ k : Fin 512, Wd (ix3 r m k) * Pt (ix3 r p k) :=
    product_apply (truncf (F := Ideal) .bf16 Wd bitsLt_bf16_f32) (truncf (F := Ideal) .bf16 Pt bitsLt_bf16_f32) r m p
  unfold k0_pay7 Cert.Pooling.leaky
  simp only [select_apply, cmpf_apply, mulf_apply, broadcast_apply, hM, Ideal.ofBits_def]

/-- The running largest at `(r, m)` after the tile: the larger of what it was and the tile's largest penalised similarity. -/
theorem largest_apply (prev : Vec Ideal S8x128 .f32) (r : Fin 8) (m : Fin 128) :
    k0_pay8 Pt Wd Mk prev (ix2 r m)
      = max (prev (ix2 r m)) ((Finset.univ : Finset (Fin 256)).fold max ⊥ fun p =>
          k0_pay7 Pt Wd (ix3 r m p) - Ideal.ofBits .f32 0x447A0000#32 * (Ideal.ofBits .f32 0x3F800000#32 - Mk (ix2 r p))) := by
  unfold k0_pay8
  dsimp only
  rw [shapeCast_self, maximumf_apply, rowmax256]
  refine congrArg (max _) (Finset.fold_congr fun p _ => ?_)
  simp only [subf_apply, bcast_mid, shapeCast_self, cast_mid, mulf_apply, broadcast_apply, Ideal.ofBits_def]

/-- The tile's weighted column sum at `r`. -/
theorem weighted_apply (r : Fin 8) :
    k0_pay9 Pt Wd Mk (ix1 r)
      = ∑ p : Fin 256, ((Finset.univ : Finset (Fin 128)).fold max ⊥ fun m => k0_pay7 Pt Wd (ix3 r m p)) * Mk (ix2 r p) := by
  unfold k0_pay9
  dsimp only
  rw [rowsum256]
  refine Finset.sum_congr rfl fun p _ => ?_
  rw [mulf_apply, colmax128]

/-- The running weighted sum at `(r, 0)` adds the tile's term. -/
theorem add_weighted_apply (prev : Vec Ideal S8x1 .f32) (v : FVec Ideal S8 .f32) (r : Fin 8) :
    k0_pay1 prev v (ix2 r (0 : Fin 1)) = prev (ix2 r (0 : Fin 1)) + v (ix1 r) := by
  unfold k0_pay1
  rw [shapeCast_self, addf_apply, cast_col]

/-- The running mask sum at `(r, 0)` adds the tile's mask sum. -/
theorem add_mask_apply (prev : Vec Ideal S8x1 .f32) (r : Fin 8) :
    k0_pay2 Mk prev (ix2 r (0 : Fin 1)) = prev (ix2 r (0 : Fin 1)) + ∑ p : Fin 256, Mk (ix2 r p) := by
  unfold k0_pay2
  dsimp only
  rw [shapeCast_self, addf_apply, cast_col, rowsum256]

/-- The closing combination at `(r, 0)`. -/
theorem close_apply (L : Vec Ideal S8x128 .f32) (Wt Ms : Vec Ideal S8x1 .f32) (r : Fin 8) :
    k0_pay3 L Wt Ms (ix2 r (0 : Fin 1))
      = Cert.Pooling.combine (fun m => L (ix2 r m)) (Wt (ix2 r (0 : Fin 1))) (Ms (ix2 r (0 : Fin 1))) := by
  unfold k0_pay3 Cert.Pooling.combine
  dsimp only
  rw [addf_apply, divf_apply, divf_apply, addf_apply, cast_col, rowsum128]
  simp only [broadcast_apply, Ideal.ofBits_def]

/-- What the three quantities start from: the bottom element, zero, zero. -/
theorem reset_largest_apply (r : Fin 8) (m : Fin 128) : k0_pay4 (F := Ideal) (ix2 r m) = (⊥ : EReal) := by
  unfold k0_pay4
  rw [shapeCast_self, broadcast_apply]
  exact negInf
theorem reset_weighted_apply (r : Fin 8) : k0_pay5 (F := Ideal) (ix2 r (0 : Fin 1)) = (0 : EReal) := by
  unfold k0_pay5
  rw [shapeCast_self, broadcast_apply]
  exact Ideal.ofBits_zero_f32
theorem reset_mask_apply (r : Fin 8) : k0_pay6 (F := Ideal) (ix2 r (0 : Fin 1)) = (0 : EReal) := by
  unfold k0_pay6
  rw [shapeCast_self, broadcast_apply]
  exact Ideal.ofBits_zero_f32

end Cert.KernelIdeal.Payloads

end
-- ==== Proof.Result.lean ====
/-
  The block a batch block's last tile stores is the pooled score of its eight batch entries.

  Row `r` of batch block `t / 4` is batch entry `b = 8·(t/4) + r`, and patch `p` of tile `j = t % 4` is patch
  `256 j + p`. Read there, a tile's similarity is the specification's, so its largest penalised similarity, its weighted
  column sum and its mask sum are the specification's quantities over stretch `j`. The first tile starts the running
  largest from the bottom element and the two sums from zero, each later tile takes the larger or adds, and after the
  fourth the closing combination is the score with the patches taken 256 at a time, which is the score.
-/
import proofs.«155726_j979252544026_1_alg».proof.Proof.Blocks
import proofs.«155726_j979252544026_1_alg».proof.Proof.Payloads

noncomputable section

open scoped BigOperators
open Idealize.ShloMosaic Idealize.ShloMosaic.TcCoe Idealize.SL.Sem

namespace Cert.KernelIdeal.Result

open Cert.KernelIdeal Cert.KernelIdeal.Gen Cert.KernelIdeal.Tiles Cert.KernelIdeal.Blocks Cert.KernelIdeal.Payloads
open Cert.Pooling Idealize.ShloMosaic.ValueIdx

variable (m : (ℓ : Loc nD τ sig) → Buf (Elt Ideal) ℓ)

/-- The three argument arrays on core `c`. -/
abbrev P (c : Dev nD) : SPatch.Idx → EReal := m ((c : Thread nD τ).loc main_arg0)
abbrev W (c : Dev nD) : SWord.Idx → EReal := m ((c : Thread nD τ).loc main_arg1)
abbrev K (c : Dev nD) : SMask.Idx → EReal := m ((c : Thread nD τ).loc main_arg2)

section tile
variable (c : Dev nD) (t : Fin cfg0.N) (r : Fin 8) (b : Fin 256) (j : Fin 4)
  (hb : b.val = 8 * (t.val / 4) + r.val) (hj : j.val = t.val % 4)
include hb hj

/-- A tile's similarity is the specification's, at the tile's place in the arrays. -/
theorem tile_sim (w : Fin 128) (p : Fin 256) :
    k0_pay7 (patches m c t) (words m c t) (ix3 r w p) = sim (P m c) (W m c) b w (tileAt j p) := by
  rw [sim_apply]
  unfold sim dot
  refine congrArg leaky (Finset.sum_congr rfl fun k _ => ?_)
  rw [words_apply m c t r w k b hb, patches_apply m c t r p k b (tileAt j p) hb (by rw [tileAt_val, hj])]

/-- A tile's entry of the mask is the specification's. -/
theorem tile_mask (p : Fin 256) : mask m c t (ix2 r p) = K m c (ix2 b (tileAt j p)) :=
  mask_apply m c t r p b (tileAt j p) hb (by rw [tileAt_val, hj])

/-- A tile's largest penalised similarity of word `w` is the specification's over stretch `j`. -/
theorem tile_largest (w : Fin 128) :
    ((Finset.univ : Finset (Fin 256)).fold max ⊥ fun p => k0_pay7 (patches m c t) (words m c t) (ix3 r w p)
        - Ideal.ofBits .f32 0x447A0000#32 * (Ideal.ofBits .f32 0x3F800000#32 - mask m c t (ix2 r p)))
      = tileMax (rowTerm (P m c) (W m c) (K m c) b w) j := by
  unfold tileMax rowTerm pen
  refine Finset.fold_congr fun p _ => ?_
  rw [tile_sim m c t r b j hb hj, tile_mask m c t r b j hb hj]

/-- A tile's weighted column sum is the specification's over stretch `j`. -/
theorem tile_weighted :
    (∑ p : Fin 256, ((Finset.univ : Finset (Fin 128)).fold max ⊥ fun w => k0_pay7 (patches m c t) (words m c t) (ix3 r w p))
        * mask m c t (ix2 r p))
      = tileSum (colTerm (P m c) (W m c) (K m c) b) j := by
  unfold tileSum colTerm colMax
  refine Finset.sum_congr rfl fun p _ => ?_
  rw [tile_mask m c t r b j hb hj]
  refine congrArg (· * _) (Finset.fold_congr fun w _ => ?_)
  exact tile_sim m c t r b j hb hj w p

/-- A tile's mask sum is the specification's over stretch `j`. -/
theorem tile_masksum : (∑ p : Fin 256, mask m c t (ix2 r p)) = tileSum (fun n => K m c (ix2 b n)) j := by
  unfold tileSum
  exact Finset.sum_congr rfl fun p _ => tile_mask m c t r b j hb hj p

/-! The three quantities after a later tile, and after a first one -/

theorem step_largest (s : Triple Ideal) (w : Fin 128) :
    (step m c t s).1 (ix2 r w) = max (s.1 (ix2 r w)) (tileMax (rowTerm (P m c) (W m c) (K m c) b w) j) := by
  show k0_pay8 (patches m c t) (words m c t) (mask m c t) s.1 (ix2 r w) = _
  rw [largest_apply, tile_largest m c t r b j hb hj]

theorem step_weighted (s : Triple Ideal) :
    (step m c t s).2.1 (ix2 r (0 : Fin 1)) = s.2.1 (ix2 r (0 : Fin 1)) + tileSum (colTerm (P m c) (W m c) (K m c) b) j := by
  show k0_pay1 s.2.1 (k0_pay9 (patches m c t) (words m c t) (mask m c t)) (ix2 r (0 : Fin 1)) = _
  rw [add_weighted_apply, weighted_apply, tile_weighted m c t r b j hb hj]

theorem step_masksum (s : Triple Ideal) :
    (step m c t s).2.2 (ix2 r (0 : Fin 1)) = s.2.2 (ix2 r (0 : Fin 1)) + tileSum (fun n => K m c (ix2 b n)) j := by
  show k0_pay2 (mask m c t) s.2.2 (ix2 r (0 : Fin 1)) = _
  rw [add_mask_apply, tile_masksum m c t r b j hb hj]

theorem start_largest (w : Fin 128) :
    (start m c t).1 (ix2 r w) = max ⊥ (tileMax (rowTerm (P m c) (W m c) (K m c) b w) j) := by
  show k0_pay8 (patches m c t) (words m c t) (mask m c t) (k0_pay4 (F := Ideal)) (ix2 r w) = _
  rw [largest_apply, tile_largest m c t r b j hb hj, reset_largest_apply]

theorem start_weighted :
    (start m c t).2.1 (ix2 r (0 : Fin 1)) = tileSum (colTerm (P m c) (W m c) (K m c) b) j := by
  show k0_pay1 (k0_pay5 (F := Ideal)) (k0_pay9 (patches m c t) (words m c t) (mask m c t)) (ix2 r (0 : Fin 1)) = _
  rw [add_weighted_apply, weighted_apply, tile_weighted m c t r b j hb hj, reset_weighted_apply, zero_add]

theorem start_masksum :
    (start m c t).2.2 (ix2 r (0 : Fin 1)) = tileSum (fun n => K m c (ix2 b n)) j := by
  show k0_pay2 (mask m c t) (k0_pay6 (F := Ideal)) (ix2 r (0 : Fin 1)) = _
  rw [add_mask_apply, tile_masksum m c t r b j hb hj, reset_mask_apply, zero_add]

end tile

/-- THE BLOCK OF A LAST TILE: row `r` of what point `t` stores, `t` a batch block's fourth tile, is the score of
    batch entry `8·(t/4) + r`. -/
theorem result_apply (c : Dev nD) (t : Fin cfg0.N) (h3 : t.val % 4 = 3) (r : Fin 8) (b : Fin 256)
    (hb : b.val = 8 * (t.val / 4) + r.val) :
    (outsAt0 m c t.val t.isLt).1 (ix2 r (0 : Fin 1)) = score (P m c) (W m c) (K m c) b := by
  have hN : t.val < 128 := lt_of_lt_of_eq t.isLt (show cfg0.N = 128 from N_0)
  have hb1 : b.val = 8 * ((back t 1).val / 4) + r.val := by show b.val = 8 * ((t.val - 1) / 4) + r.val; omega
  have hb2 : b.val = 8 * ((back t 2).val / 4) + r.val := by show b.val = 8 * ((t.val - 2) / 4) + r.val; omega
  have hb3 : b.val = 8 * ((back t 3).val / 4) + r.val := by show b.val = 8 * ((t.val - 3) / 4) + r.val; omega
  have j3 : (3 : Fin 4).val = t.val % 4 := by show 3 = t.val % 4; omega
  have j2 : (2 : Fin 4).val = (back t 1).val % 4 := by show 2 = (t.val - 1) % 4; omega
  have j1 : (1 : Fin 4).val = (back t 2).val % 4 := by show 1 = (t.val - 2) % 4; omega
  have j0 : (0 : Fin 4).val = (back t 3).val % 4 := by show 0 = (t.val - 3) % 4; omega
  rw [unrolled m c t h3, score_tiles]
  unfold close
  rw [close_apply]
  refine congr (congr (congrArg combine (funext fun w => ?_)) ?_) ?_
  · rw [step_largest m c t r b 3 hb j3, step_largest m c (back t 1) r b 2 hb1 j2,
      step_largest m c (back t 2) r b 1 hb2 j1, start_largest m c (back t 3) r b 0 hb3 j0]
  · rw [step_weighted m c t r b 3 hb j3, step_weighted m c (back t 1) r b 2 hb1 j2,
      step_weighted m c (back t 2) r b 1 hb2 j1, start_weighted m c (back t 3) r b 0 hb3 j0]
  · rw [step_masksum m c t r b 3 hb j3, step_masksum m c (back t 1) r b 2 hb1 j2,
      step_masksum m c (back t 2) r b 1 hb2 j1, start_masksum m c (back t 3) r b 0 hb3 j0]

end Cert.KernelIdeal.Result

end
-- ==== Proof.Final.lean ====
/-
  The kernel's result array is the pooled score.

  The result array is written back once per batch block, after its fourth tile: block `t / 4`, eight rows of one
  column. Row `r` of that block is the score of batch entry `8·(t/4) + r`, which is the specification's array read
  through the block; and every row `b` of the array lies in the block written after point `4·(b/8) + 3`. So the array
  ends at the specification's, and the three argument arrays end as they began.
-/
import proofs.«155726_j979252544026_1_alg».proof.Proof.Result
import proofs.«155726_j979252544026_1_alg».proof.Proof.Gen.KernelIdeal.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Tiles Cert.KernelIdeal.Blocks Cert.KernelIdeal.Result
open Cert.Pooling Idealize.ShloMosaic.ValueIdx

variable (m : (ℓ : Loc nD τ sig) → Buf (Elt Ideal) ℓ) (ρ : Dev nD → PrngReg)

/-- The specification's array of the three argument arrays on core `c`. -/
abbrev spec (c : Dev nD) : Buf (Elt Ideal) ((c : Thread nD τ).loc main_v0) := G (P m c) (W m c) (K m c)

/-- An entry of a stored block, at any index of the block: the score of its row's batch entry. -/
theorem result_idx (c : Dev nD) (t : Fin cfg0.N) (h3 : t.val % 4 = 3) (y : S8x1.Idx) (b : Fin 256)
    (hb : b.val = 8 * (t.val / 4) + (y 0).val) :
    (outsAt0 m c t.val t.isLt).1 y = score (P m c) (W m c) (K m c) b := by
  obtain ⟨r, z, rfl⟩ : ∃ (r : Fin 8) (z : Fin 1), y = ix2 r z := ⟨y 0, y 1, eq_ix2 y⟩
  obtain rfl : z = 0 := Subsingleton.elim _ _
  exact result_apply m c t h3 r b hb

/-- WHAT A FLUSHING POINT WRITES BACK is its block of the specification's array. -/
theorem flushed_eq (c : Dev nD) (t : Fin cfg0.N) (hf : (cfg0.win 3).flush t = true) :
    (dats m 0 c).flushed 3 t = ((cfg0.win 3).blk t).view.read (Elt Ideal) (spec m c) := by
  have h3 : t.val % 4 = 3 := (flush0_3 t).mp hf
  obtain ⟨-, -, -, -, -, -, -, -, e0, -⟩ := origins t
  rw [Cert.KernelIdeal.Value.flushed3]
  funext y
  rw [View.read_apply]
  show (outsAt0 m c t.val t.isLt).1 y = score (P m c) (W m c) (K m c) ((((cfg0.win 3).blk t).view.emb y) 0)
  refine result_idx m c t h3 y _ ?_
  show win0_3.index t (0 : Fin 2) * 8 + 1 * (y 0).val = 8 * (t.val / 4) + (y 0).val
  rw [e0]
  omega

/-- An index of the array is in point `t`'s block iff each coordinate is in the block's range on its axis. -/
theorem mem_blk (t : Fin cfg0.N) (i : S256x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v0).slice (win0_3.rect t)).set ↔ _
  rw [View.set_slice_whole, Rect.mem_set_unit]
  exact Iff.rfl

/-- Every row of the array is written back: row `b` by the fourth tile of batch block `b / 8`. -/
theorem cover (i : S256x1.Idx) : ∃ t : Fin cfg0.N, (cfg0.win 3).flush t = true ∧ i ∈ ((cfg0.win 3).blk t).view.set := by
  have hi0 : (i 0).val < 256 := (i 0).isLt
  have hi1 : (i 1).val < 1 := (i 1).isLt
  have hN : cfg0.N = 128 := N_0
  let t : Fin cfg0.N := ⟨4 * ((i 0).val / 8) + 3, by rw [hN]; omega⟩
  have ht : t.val = 4 * ((i 0).val / 8) + 3 := rfl
  obtain ⟨-, -, -, -, -, -, -, -, e0, e1⟩ := origins t
  refine ⟨t, (flush0_3 t).mpr (by rw [ht]; omega), ?_⟩
  rw [mem_blk]
  intro a
  match a with
  | ⟨0, _⟩ => show win0_3.index t (0 : Fin 2) * 8 ≤ (i 0).val ∧ (i 0).val < win0_3.index t (0 : Fin 2) * 8 + 8; rw [e0, ht]; omega
  | ⟨1, _⟩ => show win0_3.index t (1 : Fin 2) * 1 ≤ (i 1).val ∧ (i 1).val < win0_3.index t (1 : Fin 2) * 1 + 1; rw [e1]; omega

/-- THE RESULT ARRAY after the run is the specification's. -/
theorem final (c : Dev nD) : (dats m 0 c).arrAt 3 cfg0.N = spec m c :=
  (dats m 0 c).arrAt_eq_of_cover 3 (spec m c) (flushed_eq m c) cover

/-- The run, read: the result array at the specification's, the three arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.KernelIdeal.Final

end
-- ==== Proof.RefValue.lean ====
/-
  The reference computes the pooled score.

  Stage by stage: the inner products of every word with every patch, the leaky ramp, the penalty `1000 · (1 − mask)`
  repeated over the words and subtracted, the largest over the patches, the sum over the words divided by 128; and the
  largest over the words, times the mask, summed over the patches, divided by the mask's sum plus the small constant.
  Read at a batch entry each stage is the specification's quantity of the same name, so the last stage is its array.
-/
import proofs.«155726_j979252544026_1_alg».proof.Proof.Gen.ReferenceIdeal.Read
import proofs.«155726_j979252544026_1_alg».proof.Proof.Pooling

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Cert.Pooling Idealize.ShloMosaic.ValueIdx

variable (x0 : (⟨S256x1024x512, .f32⟩ : BufTy).Contents (Elt Ideal)) (x1 : (⟨S256x128x512, .f32⟩ : BufTy).Contents (Elt Ideal))
  (x2 : (⟨S256x1024, .f32⟩ : BufTy).Contents (Elt Ideal))

/-- The word of minus infinity is the bottom element. -/
theorem negInf : Ideal.ofBits .f32 0xFF800000#32 = (⊥ : EReal) := by simp [Ideal.ofBits, Ideal.ieee]

/-- The similarity stage at `(b, w, n)` is the specification's similarity. -/
theorem stage_sim (b : Fin 256) (w : Fin 128) (n : Fin 1024) : val_main_v5 (F := Ideal) x0 x1 (ix3 b w n) = sim x0 x1 b w n := by
  have hl : ∀ k : Fin 512, lidx_main_v0 (ix3 b w n) k = ix3 b w k := fun k => funext fun a => Fin.ext (by
    match a with | ⟨0, _⟩ => rfl | ⟨1, _⟩ => rfl | ⟨2, _⟩ => rfl)
  have hr : ∀ k : Fin 512, ridx_main_v0 (ix3 b w n) k = ix3 b n k := fun k => funext fun a => Fin.ext (by
    match a with | ⟨0, _⟩ => rfl | ⟨1, _⟩ => rfl | ⟨2, _⟩ => rfl)
  rw [val_main_v5_apply, val_main_v2_apply, val_main_v4_apply, val_main_v1_apply, val_main_v3_apply, val_main_cst_apply,
    val_main_cst_0_apply, val_main_v0_apply]
  simp only [hl, hr]
  rfl

/-- The penalty stage at `(b, w, n)` is the specification's penalty of patch `n`, whatever the word. -/
theorem stage_pen (b : Fin 256) (w : Fin 128) (n : Fin 1024) : val_main_v11 (F := Ideal) x2 (ix3 b w n) = pen x2 b n := by
  have hi : idx_main_v8 (idx_main_v11 (ix3 b w n)) = ix2 b n := funext fun a => Fin.ext (by
    match a with | ⟨0, _⟩ => rfl | ⟨1, _⟩ => rfl)
  rw [val_main_v11_apply, val_main_v10_apply, val_main_v9_apply, val_main_v8_apply, val_main_v7_apply, val_main_v6_apply,
    val_main_cst_2_apply, val_main_cst_1_apply, hi]
  rfl

/-- The index a reduction inserts on the axis it drops. -/
theorem lift_patch (h : S256x128x1024.Reduces [2] S256x128) (b : Fin 256) (w : Fin 128) (n : Fin 1024) : h.lift (ix2 b w) n = ix3 b w n :=
  funext fun a => Fin.ext (by match a with | ⟨0, _⟩ => rfl | ⟨1, _⟩ => rfl | ⟨2, _⟩ => rfl)
theorem lift_word (h : S256x128x1024.Reduces [1] S256x1024) (b : Fin 256) (n : Fin 1024) (w : Fin 128) : h.lift (ix2 b n) w = ix3 b w n :=
  funext fun a => Fin.ext (by match a with | ⟨0, _⟩ => rfl | ⟨1, _⟩ => rfl | ⟨2, _⟩ => rfl)

/-- The host's largest-element reduction over the patch axis, at `(b, w)`: from the initial value over the 1024 patches. -/
theorem hostmax_patch (x : S256x128x1024.Idx → EReal) (init : S_.Idx → EReal) (h' : S256x128x1024.ReducesTo [2] S256x128)
    (hu : 0 < S_.numel) (b : Fin 256) (w : Fin 128) :
    Host.reduce (FloatOps.maximumf (F := Ideal) (φ := .f32)) x init h' hu (ix2 b w)
      = (Finset.univ : Finset (Fin 1024)).fold max (init (Shape.Idx.first hu)) fun n => x (ix3 b w n) :=
  (Host.reduce_eq_fold_single (FloatOps.maximumf (F := Ideal) (φ := .f32)) x init h' (by decide) hu (ix2 b w)).trans
    (Finset.fold_congr fun n _ => congrArg x (lift_patch _ b w n))

/-- The same over the word axis, at `(b, n)`: over the 128 words. -/
theorem hostmax_word (x : S256x128x1024.Idx → EReal) (init : S_.Idx → EReal) (h' : S256x128x1024.ReducesTo [1] S256x1024)
    (hu : 0 < S_.numel) (b : Fin 256) (n : Fin 1024) :
    Host.reduce (FloatOps.maximumf (F := Ideal) (φ := .f32)) x init h' hu (ix2 b n)
      = (Finset.univ : Finset (Fin 128)).fold max (init (Shape.Idx.first hu)) fun w => x (ix3 b w n) :=
  (Host.reduce_eq_fold_single (FloatOps.maximumf (F := Ideal) (φ := .f32)) x init h' (by decide) hu (ix2 b n)).trans
    (Finset.fold_congr fun w _ => congrArg x (lift_word _ b n w))

/-- The largest over the patches of the penalised similarity, from the bottom element. -/
theorem stage_rowmax (b : Fin 256) (w : Fin 128) :
    val_main_v13 (F := Ideal) x0 x1 x2 (ix2 b w) = (Finset.univ : Finset (Fin 1024)).fold max ⊥ (rowTerm x0 x1 x2 b w) := by
  unfold val_main_v13
  refine (hostmax_patch _ _ _ _ b w).trans ?_
  rw [val_main_cst_3_apply, Ideal.ofBits_def, negInf]
  refine Finset.fold_congr fun n _ => ?_
  rw [val_main_v12_apply, stage_sim, stage_pen]
  rfl

/-- The largest over the words of the similarity, from the bottom element. -/
theorem stage_colmax (b : Fin 256) (n : Fin 1024) :
    val_main_v18 (F := Ideal) x0 x1 (ix2 b n) = colMax x0 x1 b n := by
  unfold val_main_v18 colMax
  refine (hostmax_word _ _ _ _ b n).trans ?_
  rw [val_main_cst_6_apply, Ideal.ofBits_def, negInf]
  exact Finset.fold_congr fun w _ => stage_sim x0 x1 b w n

/-- The words' average of the largest penalised similarity, at batch entry `b`. -/
theorem stage_rowmean (b : Fin 256) :
    val_main_v17 (F := Ideal) x0 x1 x2 (ix2 b (0 : Fin 1))
      = Ideal.div (∑ w : Fin 128, (Finset.univ : Finset (Fin 1024)).fold max ⊥ (rowTerm x0 x1 x2 b w)) (Ideal.ofBits .f32 0x43000000#32) := by
  rw [val_main_v17_apply, val_main_v15_apply, val_main_v14_apply, val_main_v16_apply, val_main_cst_4_apply, val_main_cst_5_apply,
    Ideal.ofBits_def, Ideal.ofBits_def, Ideal.ofBits_zero_f32, zero_add, Ideal.hostDivf_def]
  have hs : (∑ k : Fin 128, val_main_v13 (F := Ideal) x0 x1 x2 (idx_main_v14 (idx_main_v15 (ix2 b (0 : Fin 1))) k))
      = ∑ w : Fin 128, (Finset.univ : Finset (Fin 1024)).fold max ⊥ (rowTerm x0 x1 x2 b w) :=
    Finset.sum_congr rfl fun w _ => by
      have e : idx_main_v14 (idx_main_v15 (ix2 b (0 : Fin 1))) w = ix2 b w := funext fun a => Fin.ext (by
        match a with | ⟨0, _⟩ => rfl | ⟨1, _⟩ => rfl)
      rw [e, stage_rowmax]
  rw [hs]

/-- The weighted column sum at batch entry `b`. -/
theorem stage_weighted (b : Fin 256) :
    val_main_v21 (F := Ideal) x0 x1 x2 (ix2 b (0 : Fin 1)) = ∑ n : Fin 1024, colTerm x0 x1 x2 b n := by
  rw [val_main_v21_apply, val_main_v20_apply, val_main_cst_7_apply, Ideal.ofBits_def, Ideal.ofBits_zero_f32, zero_add]
  refine Finset.sum_congr rfl fun n _ => ?_
  have e : idx_main_v20 (idx_main_v21 (ix2 b (0 : Fin 1))) n = ix2 b n := funext fun a => Fin.ext (by
    match a with | ⟨0, _⟩ => rfl | ⟨1, _⟩ => rfl)
  rw [e, val_main_v19_apply, stage_colmax]
  rfl

/-- The mask sum plus the small constant, at batch entry `b`. -/
theorem stage_masksum (b : Fin 256) :
    val_main_v25 (F := Ideal) x2 (ix2 b (0 : Fin 1)) = (∑ n : Fin 1024, x2 (ix2 b n)) + Ideal.ofBits .f32 0x322BCC77#32 := by
  rw [val_main_v25_apply, val_main_v23_apply, val_main_v22_apply, val_main_v24_apply, val_main_cst_8_apply, val_main_cst_9_apply,
    Ideal.ofBits_def, Ideal.ofBits_def, Ideal.ofBits_zero_f32, zero_add]
  refine congrArg (fun s => FloatOps.addf (F := Ideal) (φ := .f32) s _) (Finset.sum_congr rfl fun n _ => ?_)
  have e : idx_main_v22 (idx_main_v23 (ix2 b (0 : Fin 1))) n = ix2 b n := funext fun a => Fin.ext (by
    match a with | ⟨0, _⟩ => rfl | ⟨1, _⟩ => rfl)
  rw [e]

/-- THE LAST STAGE is the specification's array. -/
theorem result_eq : val_main_v27 (F := Ideal) x0 x1 x2 = G x0 x1 x2 := by
  funext i
  obtain ⟨b, z, rfl⟩ : ∃ (b : Fin 256) (z : Fin 1), i = ix2 b z := ⟨i 0, i 1, eq_ix2 i⟩
  obtain rfl : z = 0 := Subsingleton.elim _ _
  rw [val_main_v27_apply, val_main_v26_apply, stage_rowmean, stage_weighted, stage_masksum]
  rfl

end Cert.ReferenceIdeal.RefValue

end
-- ==== Proof.lean ====
/-
  A kernel that pools word–patch similarities tile by tile computes the same numbers as the reference that pools them
  all at once, over the extended reals.

  Both programs form, for every batch entry, the leaky ramp of the inner products of 128 words with 1024 patches, and
  pool it twice: per word the largest over the patches after a penalty `1000 · (1 − mask)`, averaged over the words; per
  patch the largest over the words, weighted by the mask, summed and divided by the mask's sum plus a small constant.
  The reference takes each largest element and each sum over all 1024 patches. The kernel visits the patches 256 at a
  time, keeping a running largest element that starts at the bottom element and two running sums that start at zero,
  and combines them after the fourth visit. A largest element over a union is the largest of the parts' largest
  elements and a sum over a union of disjoint parts is the sum of the parts' sums; both hold for all extended reals, so
  the inputs' finiteness is not used. The constants are the same binary words on both sides and are never evaluated,
  and a change of float format is the identity here, so the two inner products are one sum.

  The three frames: each kernel's is its generated run with the results forgotten, the reference's its generated run
  likewise. The idealized kernel is the kernel's own text read over the extended reals, so nothing is owed for it.
-/
import proofs.«155726_j979252544026_1_alg».proof.Defs
import proofs.«155726_j979252544026_1_alg».proof.Proof.Gen.Kernel
import proofs.«155726_j979252544026_1_alg».proof.Proof.Gen.Kernel.Skeleton
import proofs.«155726_j979252544026_1_alg».proof.Proof.Gen.Kernel.Launch
import proofs.«155726_j979252544026_1_alg».proof.Proof.Gen.Kernel.Points
import proofs.«155726_j979252544026_1_alg».proof.Proof.Gen.Kernel.Frame
import proofs.«155726_j979252544026_1_alg».proof.Proof.Gen.KernelIdeal
import proofs.«155726_j979252544026_1_alg».proof.Proof.Gen.KernelIdeal.Skeleton
import proofs.«155726_j979252544026_1_alg».proof.Proof.Gen.KernelIdeal.Launch
import proofs.«155726_j979252544026_1_alg».proof.Proof.Gen.KernelIdeal.Points
import proofs.«155726_j979252544026_1_alg».proof.Proof.Gen.KernelIdeal.Frame
import proofs.«155726_j979252544026_1_alg».proof.Proof.Gen.KernelIdeal.Value
import proofs.«155726_j979252544026_1_alg».proof.Proof.Gen.ReferenceIdeal
import proofs.«155726_j979252544026_1_alg».proof.Proof.Gen.ReferenceIdeal.Run
import proofs.«155726_j979252544026_1_alg».proof.Proof.Gen.ReferenceIdeal.Read
import proofs.«155726_j979252544026_1_alg».proof.Proof.Gen.Pre_finite_inputs
import proofs.«155726_j979252544026_1_alg».proof.Proof.Final
import proofs.«155726_j979252544026_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- THE TWO PROGRAMS AGREE: from memories that agree on the three arguments, the kernel's result array ends at the pooled
    score of its arguments, the reference's at the pooled score of its own, and those are the same arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
